-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S1024x1024 : Shape := ⟨2, ![1024, 1024]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S128x1024 .f32) (main_arg1 : FVec F S1024x1024 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S128x1024 : Shape := ⟨2, ![128, 1024]⟩
abbrev S1024x1024 : Shape := ⟨2, ![1024, 1024]⟩
abbrev S32x128 : Shape := ⟨2, ![32, 128]⟩
abbrev S128x128 : Shape := ⟨2, ![128, 128]⟩
abbrev S32x1x128 : Shape := ⟨3, ![32, 1, 128]⟩
abbrev S1x128x128 : Shape := ⟨3, ![1, 128, 128]⟩
abbrev S32x128x128 : Shape := ⟨3, ![32, 128, 128]⟩

abbrev nBuf : Space → Nat
  | .hbm => 3
  | .vmem => 6
  | .smem => 0
  | _ => 0

abbrev bufTy : (tb : Table) → Fin (tcTables nBuf tb) → BufTy
  | .hbm, ⟨0, _⟩ => ⟨S128x1024, .f32⟩
  | .hbm, ⟨1, _⟩ => ⟨S1024x1024, .f32⟩
  | .hbm, ⟨2, _⟩ => ⟨S128x1024, .f32⟩
  | .local _ .vmem, ⟨0, _⟩ => ⟨S32x128, .f32⟩
  | .local _ .vmem, ⟨1, _⟩ => ⟨S32x128, .f32⟩
  | .local _ .vmem, ⟨2, _⟩ => ⟨S128x128, .f32⟩
  | .local _ .vmem, ⟨3, _⟩ => ⟨S128x128, .f32⟩
  | .local _ .vmem, ⟨4, _⟩ => ⟨S32x128, .f32⟩
  | .local _ .vmem, ⟨5, _⟩ => ⟨S32x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S32x128_S32x128_0_0 : ∀ a, (![0, 0] : Fin 2 → Nat) a + S32x128.size a ≤ S32x128.size a
  h_S32x128 : 0 < S32x128.numel
  inb_S128x128_S128x128_0_0 : ∀ a, (![0, 0] : Fin 2 → Nat) a + S128x128.size a ≤ S128x128.size a
  h_S128x128 : 0 < S128x128.numel
  shapeCasts_S32x128_S32x1x128 : S32x128.ShapeCasts S32x1x128
  shapeCasts_S128x128_S1x128x128 : S128x128.ShapeCasts S1x128x128
  broadcasts_S32x1x128_S32x128x128 : S32x1x128.Broadcasts S32x128x128
  broadcasts_S1x128x128_S32x128x128 : S1x128x128.Broadcasts S32x128x128
  shapeCasts_S1x128x128_S1x128x128 : S1x128x128.ShapeCasts S1x128x128
  reduces_S32x128x128_S32x128 : S32x128x128.Reduces [2] S32x128
  shapeCasts_S32x128_S32x128 : S32x128.ShapeCasts S32x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128.size a ≤ S128x1024.size a
  hwx0_0 : ∀ i : grid0.Coords, EltTy.bits .f32 = 32 ∨ (Rect.block (s := S128x1024) S32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S1024x1024.size a
  hwx0_1 : ∀ i : grid0.Coords, EltTy.bits .f32 = 32 ∨ (Rect.block (s := S1024x1024) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S128x1024.size a
  hwx0_2 : ∀ i : grid0.Coords, EltTy.bits .f32 = 32 ∨ (Rect.block (s := S128x1024) S32x128.size (cc0_transform_2 i) (hinb0_2 i)).WholeWords (EltTy.packing .f32)

variable [Facts₀]

abbrev win0_0 : Pipeline.Window sig grid0 :=
  Pipeline.Window.ofSpec (Memref.whole main_arg0) S32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x1024 : Shape := ⟨2, ![128, 1024]⟩
abbrev S1024x1024 : Shape := ⟨2, ![1024, 1024]⟩
abbrev S_ : Shape := ⟨0, ![]⟩
abbrev S128x1x1024 : Shape := ⟨3, ![128, 1, 1024]⟩
abbrev S1x1024x1024 : Shape := ⟨3, ![1, 1024, 1024]⟩
abbrev S128x1024x1024 : Shape := ⟨3, ![128, 1024, 1024]⟩

abbrev nBuf : Space → Nat
  | .hbm => 48
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S128x1x1024, .f32⟩
  | .hbm, ⟨19, _⟩ => ⟨S1x1024x1024, .f32⟩
  | .hbm, ⟨20, _⟩ => ⟨S128x1024x1024, .f32⟩
  | .hbm, ⟨21, _⟩ => ⟨S128x1024x1024, .f32⟩
  | .hbm, ⟨22, _⟩ => ⟨S128x1024x1024, .i1⟩
  | .hbm, ⟨23, _⟩ => ⟨S128x1024x1024, .f32⟩
  | .hbm, ⟨24, _⟩ => ⟨S128x1024x1024, .f32⟩
  | .hbm, ⟨25, _⟩ => ⟨S128x1024x1024, .f32⟩
  | .hbm, ⟨26, _⟩ => ⟨S128x1024x1024, .f32⟩
  | .hbm, ⟨27, _⟩ => ⟨S_, .f32⟩
  | .hbm, ⟨28, _⟩ => ⟨S128x1024x1024, .f32⟩
  | .hbm, ⟨29, _⟩ => ⟨S128x1024x1024, .f32⟩
  | .hbm, ⟨30, _⟩ => ⟨S128x1024x1024, .f32⟩
  | .hbm, ⟨31, _⟩ => ⟨S128x1024x1024, .f32⟩
  | .hbm, ⟨32, _⟩ => ⟨S_, .f32⟩
  | .hbm, ⟨33, _⟩ => ⟨S128x1024x1024, .f32⟩
  | .hbm, ⟨34, _⟩ => ⟨S128x1024x1024, .f32⟩
  | .hbm, ⟨35, _⟩ => ⟨S_, .f32⟩
  | .hbm, ⟨36, _⟩ => ⟨S128x1024x1024, .f32⟩
  | .hbm, ⟨37, _⟩ => ⟨S128x1024x1024, .f32⟩
  | .hbm, ⟨38, _⟩ => ⟨S128x1024x1024, .f32⟩
  | .hbm, ⟨39, _⟩ => ⟨S128x1024x1024, .f32⟩
  | .hbm, ⟨40, _⟩ => ⟨S_, .f32⟩
  | .hbm, ⟨41, _⟩ => ⟨S128x1024x1024, .f32⟩
  | .hbm, ⟨42, _⟩ => ⟨S128x1024x1024, .f32⟩
  | .hbm, ⟨43, _⟩ => ⟨S128x1024x1024, .f32⟩
  | .hbm, ⟨44, _⟩ => ⟨S128x1024x1024, .f32⟩
  | .hbm, ⟨45, _⟩ => ⟨S128x1024x1024, .f32⟩
  | .hbm, ⟨46, _⟩ => ⟨S_, .f32⟩
  | .hbm, ⟨47, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_6 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_7 : Ref sig .tc := ⟨.hbm, 46, rfl⟩
abbrev main_v36 : Ref sig .tc := ⟨.hbm, 47, rfl⟩

abbrev nD : Nat := 1
abbrev τ : Topo := Topo.v7x

variable {F : FTy → Type} [FloatOps F]

class Facts₀ : Prop where
  bcast_S_S128x1024 : S_.BroadcastsInDim S128x1024 (![] : Fin 0 → Fin S128x1024.rank)
  bcast_S_S1024x1024 : S_.BroadcastsInDim S1024x1024 (![] : Fin 0 → Fin S1024x1024.rank)
  bcast_S128x1024_S128x1x1024_0_2 : S128x1024.BroadcastsInDim S128x1x1024 (![0, 2] : Fin 2 → Fin S128x1x1024.rank)
  bcast_S1024x1024_S1x1024x1024_1_2 : S1024x1024.BroadcastsInDim S1x1024x1024 (![1, 2] : Fin 2 → Fin S1x1024x1024.rank)
  bcast_S128x1x1024_S128x1024x1024_0_1_2 : S128x1x1024.BroadcastsInDim S128x1024x1024 (![0, 1, 2] : Fin 3 → Fin S128x1024x1024.rank)
  bcast_S1x1024x1024_S128x1024x1024_0_1_2 : S1x1024x1024.BroadcastsInDim S128x1024x1024 (![0, 1, 2] : Fin 3 → Fin S128x1024x1024.rank)
  bcast_S_S128x1024x1024 : S_.BroadcastsInDim S128x1024x1024 (![] : Fin 0 → Fin S128x1024x1024.rank)
  reducesTo_S128x1024x1024_S128x1024_d2 : S128x1024x1024.ReducesTo [2] S128x1024
  h_S_ : 0 < S_.numel

variable [Facts₀]

class Facts : Prop extends Facts₀ where

variable [Facts]
-- ==== Proof.HeytingAlgebra.lean ====
/-
  The mathematics both programs compute, stated with no program in sight.

  Write σ for the logistic function on the extended reals, σ(x) = 1 / (1 + e^(-x)), which is a real number in [0, 1]
  for every extended real x (σ(-∞) = 0, σ(+∞) = 1). For a batch row b and an output row o the layer's value is

      out[b, o] = min over k of (σ(x[b, k]) ⇒ σ(w[o, k])),      (u ⇒ v) = 1 if u ≤ v, else v,

  the Gödel (Heyting) implication on [0, 1], minimised over the input features k, the empty minimum being +∞.

  The kernel selects between 1 and v on the comparison u ≤ v. The reference instead forms the indicator e of u ≤ v, a
  smooth surrogate s = σ(50·(v − u)), the straight-through value c = (e − s) + s and finally c + (1 − c)·v. Because s is
  a REAL number, (e − s) + s = e exactly, and e + (1 − e)·v is 1 when e = 1 and v when e = 0: the same implication
  (`refPair_eq`). No finiteness of x or w is needed: σ lands in the reals whatever its argument.

  The minimum over k is taken by the kernel in eight runs of 128 features folded into a running minimum that starts
  at +∞, and by the reference in one fold over all 1024 features. Both are characterised by the same universal
  property — z is below the result iff z is below every term — stated in `spec`'s terms by `le_spec_iff`.
-/
import Idealize.ShloMosaic.PureOps.Ideal.Laws
import Idealize.ShloMosaic.Lib.ValueIdx

noncomputable section

open Idealize.ShloMosaic Idealize.ShloMosaic.ValueIdx

namespace Cert.Heyting

/-! ## The three float literals the programs spell -/

/-- The pattern of `1.0` denotes the real 1. -/
theorem ofBits_one : Ideal.ofBits .f32 0x3F800000#32 = 1 := by
  simp [Ideal.ofBits, Ideal.ieee, -EReal.coe_mul]; norm_num

/-- The pattern of `50.0` (the surrogate's sharpness) denotes the real 50. -/
theorem ofBits_fifty : Ideal.ofBits .f32 0x42480000#32 = ((50 : ℝ) : EReal) := by
  simp [Ideal.ofBits, Ideal.ieee, -EReal.coe_mul]; norm_num

/-- The pattern of `+inf` denotes the top of the extended reals: the neutral element of `min`. -/
theorem ofBits_inf : Ideal.ofBits .f32 0x7F800000#32 = ⊤ := by
  simp [Ideal.ofBits, Ideal.ieee]

/-! ## The logistic function lands in the reals -/

/-- σ(x) is a real number for every extended real x, the two infinities included. -/
theorem logistic_real (x : EReal) : ∃ a : ℝ, Ideal.logistic x = (a : EReal) := by
  induction x using EReal.rec with
  | bot => exact ⟨0, by rw [Ideal.logistic_bot, EReal.coe_zero]⟩
  | coe r => exact ⟨_, Ideal.logistic_coe r⟩
  | top => exact ⟨1, by rw [Ideal.logistic_top, EReal.coe_one]⟩

/-! ## One (batch row, output row, feature) triple -/

/-- The Gödel implication on the extended reals: 1 when `u ≤ v`, else `v`. -/
def imp (u v : EReal) : EReal := if u ≤ v then 1 else v

/-- The kernel's spelling: a select between the literal `1.0` and `v` on the comparison `u ≤ v`. -/
theorem select_eq_imp (u v : EReal) :
    Scalar.select (Ideal.cmp .ole u v) (Ideal.ofBits .f32 0x3F800000#32) v = imp u v := by
  unfold imp Ideal.cmp
  by_cases h : u ≤ v
  · rw [if_pos h, ofBits_one]; simp [h, select_one]
  · rw [if_neg h]; simp [h, select_zero]

/-- The reference's spelling of σ: the quotient of `1.0` by `1.0 + e^(-x)`. -/
def refSig (x : Ideal .f32) : Ideal .f32 :=
  FloatOps.hostDivf (FloatOps.ofBits .f32 0x3F800000#32)
    (FloatOps.addf (FloatOps.ofBits .f32 0x3F800000#32) (FloatOps.hostUnary .exp (FloatOps.hostNegf x)))

theorem refSig_eq (x : EReal) : refSig x = Ideal.logistic x := by
  unfold refSig Ideal.logistic
  simp only [Ideal.hostDivf_def, Ideal.addf_def, Ideal.hostUnary_exp_def, Ideal.hostNegf_def, Ideal.negf_def,
    Ideal.ofBits_def, ofBits_one]

/-- The reference's spelling of one triple's value from the two logistic values `u`, `v`: the indicator `e` of
    `u ≤ v`, the smooth surrogate `s = σ(50·(v − u))`, the straight-through value `c = (e − s) + s`, and
    `c + (1 − c)·v`. -/
def refPair (u v : Ideal .f32) : Ideal .f32 :=
  let one : Ideal .f32 := FloatOps.ofBits .f32 0x3F800000#32
  let e : Ideal .f32 := FloatOps.uitofp .f32 (FloatOps.cmpf .ole u v)
  let s : Ideal .f32 := FloatOps.hostDivf one (FloatOps.addf one (FloatOps.hostUnary .exp (FloatOps.hostNegf
    (FloatOps.mulf (FloatOps.ofBits .f32 0x42480000#32) (FloatOps.subf v u)))))
  let c : Ideal .f32 := FloatOps.addf (FloatOps.subf e s) s
  FloatOps.addf c (FloatOps.mulf (FloatOps.subf one c) v)

/-- On real `u`, `v` the reference's spelling is the implication: the surrogate is a real number, so subtracting and
    adding it back changes nothing, and `e + (1 − e)·v` is `1` or `v` as `e` is `1` or `0`. -/
theorem refPair_eq (a b : ℝ) : refPair (a : EReal) (b : EReal) = imp (a : EReal) (b : EReal) := by
  obtain ⟨σ, hσ⟩ := logistic_real (((50 : ℝ) : EReal) * ((b : EReal) - (a : EReal)))
  have hs : Ideal.div 1 (1 + Ideal.exp (-(((50 : ℝ) : EReal) * ((b : EReal) - (a : EReal))))) = (σ : EReal) := hσ
  unfold refPair imp
  simp only [Ideal.ofBits_def, Ideal.hostDivf_def, Ideal.addf_def, Ideal.subf_def, Ideal.mulf_def,
    Ideal.hostUnary_exp_def, Ideal.hostNegf_def, Ideal.negf_def, ofBits_one, ofBits_fifty, hs]
  by_cases h : (a : EReal) ≤ (b : EReal)
  · have he : FloatOps.uitofp (F := Ideal) .f32 (FloatOps.cmpf (F := Ideal) (φ := .f32) .ole (a : EReal) (b : EReal))
        = ((1 : ℝ) : EReal) := by
      show (((Ideal.cmp .ole (a : EReal) (b : EReal)).toNat : ℝ) : EReal) = _
      simp [Ideal.cmp, h]
    rw [he, if_pos h]
    norm_cast
    ring
  · have he : FloatOps.uitofp (F := Ideal) .f32 (FloatOps.cmpf (F := Ideal) (φ := .f32) .ole (a : EReal) (b : EReal))
        = ((0 : ℝ) : EReal) := by
      show (((Ideal.cmp .ole (a : EReal) (b : EReal)).toNat : ℝ) : EReal) = _
      simp [Ideal.cmp, h]
    rw [he, if_neg h]
    norm_cast
    ring

/-! ## The layer -/

/-- The layer's value at (batch row, output row): the minimum over the 1024 features of the implication between the two
    logistic values, from +∞. -/
def spec (x : (⟨2, ![128, 1024]⟩ : Shape).Idx → EReal) (w : (⟨2, ![1024, 1024]⟩ : Shape).Idx → EReal) :
    (⟨2, ![128, 1024]⟩ : Shape).Idx → EReal := fun i =>
  (Finset.univ : Finset (Fin 1024)).fold min ⊤
    (fun k => imp (Ideal.logistic (x (ix2 (i 0) k))) (Ideal.logistic (w (ix2 (i 1) k))))

/-- `z` is below the layer's value iff it is below every feature's implication. -/
theorem le_spec_iff (x : (⟨2, ![128, 1024]⟩ : Shape).Idx → EReal) (w : (⟨2, ![1024, 1024]⟩ : Shape).Idx → EReal)
    (i : (⟨2, ![128, 1024]⟩ : Shape).Idx) (z : EReal) :
    z ≤ spec x w i ↔ ∀ k : Fin 1024, z ≤ imp (Ideal.logistic (x (ix2 (i 0) k))) (Ideal.logistic (w (ix2 (i 1) k))) := by
  unfold spec
  rw [Finset.le_fold_min]
  exact ⟨fun h k => h.2 k (Finset.mem_univ k), fun h => ⟨le_top, fun k _ => h k⟩⟩

end Cert.Heyting

end
-- ==== Proof.LibRunningMin.lean ====
/-
  Two general facts about minima on the extended reals, free of any particular kernel.

  * `Ideal.multiReduction_minimumf_single`: a `vector.multi_reduction <minimumf>` over ONE axis, read at a result
    index, is the fold of `min` from the accumulator's value over that axis's coordinates (the library states this for
    `<maximumf>`; the proof is the same).
  * `Pipeline.le_accAt_min_iff`: a grid-carried running minimum. If the first point of a run of consecutive grid
    points leaves `min ⊤ (R b)` in a buffer and every later point `n` leaves the minimum of what it found there and
    `R n`, then `z` is below what the buffer holds after `j` further points iff `z` is below every `R (b + s)`,
    `s ≤ j` — the universal property of the minimum of the run's contributions, with no order of evaluation in it.
-/
import Idealize.ShloMosaic.PureOps.Ideal.Laws
import Idealize.ShloMosaic.Lib.Pipeline.Value

noncomputable section

namespace Idealize.ShloMosaic

/-- A float `vector.multi_reduction <minimumf>` over one axis, read at `Ideal`: the fold of `min` from the
    accumulator's value over that axis's coordinates. -/
theorem Ideal.multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A running minimum over consecutive points `b, b+1, …`: if the first point leaves `min ⊤ (R b)` and each later
    point `n` leaves the minimum of what it found and `R n`, then after `j` further points `z` is below the value
    held iff it is below every `R (b + s)`, `s ≤ j`. -/
theorem Pipeline.le_accAt_min_iff {N : ℕ} {ι : Type} (a : (n : ℕ) → n < N → ι → EReal)
    (g : (n : ℕ) → n < N → (ι → EReal) → ι → EReal) (R : (n : ℕ) → n < N → ι → EReal) (b : ℕ)
    (ha : ∀ n h i, a n h i = min ⊤ (R n h i)) (hg : ∀ n h acc i, g n h acc i = min (acc i) (R n h i)) :
    ∀ (j : ℕ) (h : b + j < N) (i : ι) (z : EReal),
      z ≤ Pipeline.accAt a g b j h i ↔ ∀ (s : ℕ) (hs : s ≤ j), z ≤ R (b + s) (by omega) i
  | 0, h, i, z => by
    rw [Pipeline.accAt_zero, ha, le_min_iff]
    constructor
    · rintro ⟨-, hz⟩ s hs
      obtain rfl : s = 0 := by omega
      exact hz
    · intro hz
      exact ⟨le_top, hz 0 le_rfl⟩
  | j + 1, h, i, z => by
    rw [Pipeline.accAt_succ, hg, le_min_iff, Pipeline.le_accAt_min_iff a g R b ha hg j (Nat.lt_of_succ_lt h) i z]
    constructor
    · rintro ⟨h1, h2⟩ s hs
      by_cases hsj : s ≤ j
      · exact h1 s hsj
      · obtain rfl : s = j + 1 := by omega
        exact h2
    · intro hz
      exact ⟨fun s hs => hz s (by omega), hz (j + 1) le_rfl⟩

end Idealize.ShloMosaic

end
-- ==== Proof.KernelValue.lean ====
/-
  What the kernel leaves in the output array, as the layer's value `Cert.Heyting.spec` of the two argument arrays.

  The grid is 4 × 8 × 8: batch tile `bi` (32 rows), output tile `oi` (128 rows), feature tile `s` (128 features), the
  feature axis innermost, so the eight points `8·r, …, 8·r + 7` of run `r = 8·bi + oi` revisit ONE output block. At a
  point the body loads the [32, 128] block of `x` (rows `32·bi + p`, features `128·s + l`) and the [128, 128] block of
  `w` (rows `128·oi + q`, the same features), forms the [32, 128, 128] tile of implications
  `σ(x[32·bi + p, 128·s + l]) ⇒ σ(w[128·oi + q, 128·s + l])`, takes its minimum over `l` and folds that into the output
  block, which the run's first point has reset to +∞ (`pay2_apply`). After the run's last point the block therefore
  holds, at `(p, q)`, the minimum over all `s` and `l`, that is over every feature `k = 128·s + l` — the layer's value
  at row `32·bi + p`, column `128·oi + q` (Proof/KernelArray.lean).
-/
import proofs.«145883_j77945066488172_1_alg».proof.Proof.Gen.KernelIdeal.Value
import proofs.«145883_j77945066488172_1_alg».proof.Proof.HeytingAlgebra
import proofs.«145883_j77945066488172_1_alg».proof.Proof.LibRunningMin
import Idealize.ShloMosaic.Lib.ValueLayout

noncomputable section

namespace Cert.KernelIdeal.Layer

open Cert.KernelIdeal Cert.KernelIdeal.Gen Idealize.ShloMosaic Idealize.ShloMosaic.TcCoe Idealize.SL.Sem
open Idealize.ShloMosaic.ValueIdx Cert.Heyting

/-! ## One grid point's arithmetic -/

/-- The [32, 128, 128] tile of implications the body forms from its two input blocks. -/
def tile (x0 : Vec Ideal S32x128 .f32) (x1 : Vec Ideal S128x128 .f32) : FVec Ideal S32x128x128 .f32 :=
  select
    (cmpf .ole
      (broadcastTo S32x128x128 (shapeCast S32x1x128 (logistic x0 : FVec Ideal S32x128 .f32) shapeCasts_S32x128_S32x1x128) broadcasts_S32x1x128_S32x128x128)
      (broadcastTo S32x128x128 (shapeCast S1x128x128 (logistic x1 : FVec Ideal S128x128 .f32) shapeCasts_S128x128_S1x128x128) broadcasts_S1x128x128_S32x128x128))
    (broadcast S32x128x128 (Scalar.ofBits .f32 0x3F800000#32))
    (broadcastTo S32x128x128
      (shapeCast S1x128x128 (shapeCast S1x128x128 (logistic x1 : FVec Ideal S128x128 .f32) shapeCasts_S128x128_S1x128x128) shapeCasts_S1x128x128_S1x128x128)
      broadcasts_S1x128x128_S32x128x128)

/-- The body's stored value is the minimum of what the output block held and the tile's minimum over the features. -/
theorem pay2_eq (x0 : Vec Ideal S32x128 .f32) (x1 : Vec Ideal S128x128 .f32) (acc : Vec Ideal S32x128 .f32) :
    k0_pay2 x0 x1 acc = minimumf (shapeCast S32x128 acc shapeCasts_S32x128_S32x128)
      (multiReduction .minimumf [2] S32x128 (tile x0 x1) 0x7F800000#32 reduces_S32x128x128_S32x128 (.inl rfl) rfl) := rfl

/-- A [32, 128] block viewed as [32, 1, 128]: the middle coordinate is 0. -/
theorem cast_mid (v : S32x128.Idx → EReal) (p : Fin 32) (u : Fin 1) (l : Fin 128) :
    shapeCast S32x1x128 v shapeCasts_S32x128_S32x1x128 (ix3 p u l) = v (ix2 p l) :=
  shapeCast_apply v _ _ _ (by
    have hu : u.val = 0 := by omega
    rw [Shape.rowMajor_val_three, Shape.rowMajor_val_two]
    show p.val * 128 + l.val = (p.val * 1 + u.val) * 128 + l.val
    rw [hu, Nat.mul_one, Nat.add_zero])

/-- The tile at (batch row `p`, output row `q`, feature `l`) of the blocks is the implication between the two
    logistic values. -/
theorem tile_apply (x0 : Vec Ideal S32x128 .f32) (x1 : Vec Ideal S128x128 .f32) (p : Fin 32) (q : Fin 128) (l : Fin 128) :
    tile x0 x1 (ix3 p q l) = imp (Ideal.logistic (x0 (ix2 p l))) (Ideal.logistic (x1 (ix2 q l))) := by
  have hA : broadcastTo S32x128x128 (shapeCast S32x1x128 (logistic x0 : FVec Ideal S32x128 .f32) shapeCasts_S32x128_S32x1x128) broadcasts_S32x1x128_S32x128x128 (ix3 p q l)
      = Ideal.logistic (x0 (ix2 p l)) := by
    rw [broadcastTo_apply _ broadcasts_S32x1x128_S32x128x128 (ix3 p q l) (ix3 p (0 : Fin 1) l) (fun a => match a with
      | ⟨0, _⟩ => by show p.val = if (32 : Nat) = 1 then 0 else p.val; rw [if_neg (by decide)]
      | ⟨1, _⟩ => by show 0 = if (1 : Nat) = 1 then 0 else q.val; rw [if_pos rfl]
      | ⟨2, _⟩ => by show l.val = if (128 : Nat) = 1 then 0 else l.val; rw [if_neg (by decide)]), cast_mid]
    rfl
  have hB : broadcastTo S32x128x128 (shapeCast S1x128x128 (logistic x1 : FVec Ideal S128x128 .f32) shapeCasts_S128x128_S1x128x128) broadcasts_S1x128x128_S32x128x128 (ix3 p q l)
      = Ideal.logistic (x1 (ix2 q l)) := by
    rw [broadcastTo_apply _ broadcasts_S1x128x128_S32x128x128 (ix3 p q l) (ix3 (0 : Fin 1) q l) (fun a => match a with
      | ⟨0, _⟩ => by show 0 = if (1 : Nat) = 1 then 0 else p.val; rw [if_pos rfl]
      | ⟨1, _⟩ => by show q.val = if (128 : Nat) = 1 then 0 else q.val; rw [if_neg (by decide)]
      | ⟨2, _⟩ => by show l.val = if (128 : Nat) = 1 then 0 else l.val; rw [if_neg (by decide)]),
      shapeCast_ab_1ab_apply]
    rfl
  unfold tile
  rw [select_apply, cmpf_apply, hA, shapeCast_self, hB, broadcast_apply]
  exact select_eq_imp _ _

/-- The feature axis's coordinate `l` inserted into a block index `(p, q)`. -/
theorem lift_eq (p : Fin 32) (q : Fin 128) (l : Fin 128) :
    (reduces_S32x128x128_S32x128 : S32x128x128.Reduces [2] S32x128).lift (ix2 p q) l = ix3 p q l := by
  funext a; apply Fin.ext
  match a with
  | ⟨0, _⟩ => rfl
  | ⟨1, _⟩ => rfl
  | ⟨2, _⟩ => rfl

/-- ONE POINT: at `(p, q)` the body stores the minimum of what the block held there and, over the point's 128
    features, of the implications between the two blocks' logistic values. -/
theorem pay2_apply (x0 : Vec Ideal S32x128 .f32) (x1 : Vec Ideal S128x128 .f32) (acc : Vec Ideal S32x128 .f32)
    (p : Fin 32) (q : Fin 128) :
    k0_pay2 x0 x1 acc (ix2 p q) = min (acc (ix2 p q))
      ((Finset.univ : Finset (Fin 128)).fold min ⊤
        (fun l => imp (Ideal.logistic (x0 (ix2 p l))) (Ideal.logistic (x1 (ix2 q l))))) := by
  rw [pay2_eq, minimumf_apply, shapeCast_self]
  refine congrArg (min (acc (ix2 p q))) ?_
  refine (Ideal.multiReduction_minimumf_single (tile x0 x1) 0x7F800000#32 reduces_S32x128x128_S32x128 (.inl rfl) rfl
    (ix2 p q)).trans ?_
  show (Finset.univ : Finset (Fin 128)).fold min (Ideal.ofBits .f32 0x7F800000#32) _ = _
  rw [ofBits_inf]
  refine congrArg (fun f => (Finset.univ : Finset (Fin 128)).fold min ⊤ f) (funext fun (l : Fin 128) => ?_)
  exact (congrArg (tile x0 x1) (lift_eq p q l)).trans (tile_apply x0 x1 p q l)

/-- The reset value is +∞ everywhere. -/
theorem pay1_apply (i : S32x128.Idx) : k0_pay1 (F := Ideal) i = ⊤ := by
  show Ideal.ofBits .f32 0x7F800000#32 = ⊤
  exact ofBits_inf

end Cert.KernelIdeal.Layer

end
-- ==== Proof.KernelArray.lean ====
/-
  From one grid point to the whole output array.

  Point `n` of the 256-point grid has batch tile `n / 64`, output tile `(n / 8) % 8` and feature tile `n % 8`, so the
  block of `x` it loads is rows `32·(n / 64) + p`, features `128·(n % 8) + l`, and the block of `w` is rows
  `128·((n / 8) % 8) + q`, the same features (`xblk_apply`, `wblk_apply`; the index maps are decided once over the
  grid). Write `R n (p, q)` for the minimum over the point's 128 features of the implications between the two blocks'
  logistic values. The run's first point stores `min ⊤ (R n)` and each later point `min acc (R n)`, so after the
  run's eight points the output block holds a value that `z` is below iff `z` is below every `R (8·r + s) (p, q)`,
  `s ≤ 7`, iff `z` is below the implication at every feature `k = 128·s + l` of array row `32·bi + p` and array
  column `128·oi + q`: the universal property of the layer's value `spec` there.
-/
import proofs.«145883_j77945066488172_1_alg».proof.Proof.KernelValue

noncomputable section

namespace Cert.KernelIdeal.Layer

open Cert.KernelIdeal Cert.KernelIdeal.Gen Idealize.ShloMosaic Idealize.ShloMosaic.TcCoe Idealize.SL.Sem
open Idealize.ShloMosaic.ValueIdx Cert.Heyting

variable (m : (ℓ : Loc nD τ sig) → Buf (Elt Ideal) ℓ)

/-! ## The two input blocks at a point -/

/-- The block of `x` point `n` loads, at its literal type. -/
abbrev xblk (c : Dev nD) (n : ℕ) (h : n < cfg0.N) : Vec Ideal S32x128 .f32 := iblk m c 0 ⟨n, h⟩
/-- The block of `w` point `n` loads, at its literal type. -/
abbrev wblk (c : Dev nD) (n : ℕ) (h : n < cfg0.N) : Vec Ideal S128x128 .f32 := iblk m c 1 ⟨n, h⟩

/-- The index map of `x`'s window over the grid: block row `n / 64`, block column `n % 8`. -/
theorem x_index : ∀ t : Fin cfg0.N, win0_0.index t (0 : Fin 2) = t.val / 64 ∧ win0_0.index t (1 : Fin 2) = t.val % 8 :=
  (by decide +kernel : ∀ t : Fin grid0.N, _)

/-- The index map of `w`'s window over the grid: block row `(n / 8) % 8`, block column `n % 8`. -/
theorem w_index : ∀ t : Fin cfg0.N, win0_1.index t (0 : Fin 2) = t.val / 8 % 8 ∧ win0_1.index t (1 : Fin 2) = t.val % 8 :=
  (by decide +kernel : ∀ t : Fin grid0.N, _)

/-- `x`'s block at point `n`, entry `(p, l)`, is `x` at row `32·(n / 64) + p`, feature `128·(n % 8) + l`. -/
theorem xblk_apply (c : Dev nD) (n : ℕ) (h : n < cfg0.N) (p : Fin 32) (l : Fin 128) (r : Fin 128) (k : Fin 1024)
    (hr : r.val = 32 * (n / 64) + p.val) (hk : k.val = 128 * (n % 8) + l.val) :
    xblk m c n h (ix2 p l) = m ((c : Thread nD τ).loc main_arg0) (ix2 r k) := by
  show V m c main_arg0 (((cfg0.win 0).blk ⟨n, h⟩).view.emb (ix2 p l)) = V m c main_arg0 (ix2 r k)
  refine congrArg (V m c main_arg0) (funext fun a => Fin.ext ?_)
  obtain ⟨e0, e1⟩ := x_index ⟨n, h⟩
  have e0' : win0_0.index ⟨n, h⟩ (0 : Fin 2) = n / 64 := e0
  have e1' : win0_0.index ⟨n, h⟩ (1 : Fin 2) = n % 8 := e1
  match a with
  | ⟨0, _⟩ => show win0_0.index ⟨n, h⟩ (0 : Fin 2) * 32 + 1 * p.val = r.val; omega
  | ⟨1, _⟩ => show win0_0.index ⟨n, h⟩ (1 : Fin 2) * 128 + 1 * l.val = k.val; omega

/-- `w`'s block at point `n`, entry `(q, l)`, is `w` at row `128·((n / 8) % 8) + q`, feature `128·(n % 8) + l`. -/
theorem wblk_apply (c : Dev nD) (n : ℕ) (h : n < cfg0.N) (q : Fin 128) (l : Fin 128) (r : Fin 1024) (k : Fin 1024)
    (hr : r.val = 128 * (n / 8 % 8) + q.val) (hk : k.val = 128 * (n % 8) + l.val) :
    wblk m c n h (ix2 q l) = m ((c : Thread nD τ).loc main_arg1) (ix2 r k) := by
  show V m c main_arg1 (((cfg0.win 1).blk ⟨n, h⟩).view.emb (ix2 q l)) = V m c main_arg1 (ix2 r k)
  refine congrArg (V m c main_arg1) (funext fun a => Fin.ext ?_)
  obtain ⟨e0, e1⟩ := w_index ⟨n, h⟩
  have e0' : win0_1.index ⟨n, h⟩ (0 : Fin 2) = n / 8 % 8 := e0
  have e1' : win0_1.index ⟨n, h⟩ (1 : Fin 2) = n % 8 := e1
  match a with
  | ⟨0, _⟩ => show win0_1.index ⟨n, h⟩ (0 : Fin 2) * 128 + 1 * q.val = r.val; omega
  | ⟨1, _⟩ => show win0_1.index ⟨n, h⟩ (1 : Fin 2) * 128 + 1 * l.val = k.val; omega

/-! ## One point's contribution, and the run's running minimum -/

/-- What point `n` contributes at `(p, q)` of the output block: the minimum over its 128 features of the implications. -/
def R (c : Dev nD) (n : ℕ) (h : n < cfg0.N) : S32x128.Idx → EReal := fun y =>
  (Finset.univ : Finset (Fin 128)).fold min ⊤
    (fun l => imp (Ideal.logistic (xblk m c n h (ix2 (y 0) l))) (Ideal.logistic (wblk m c n h (ix2 (y 1) l))))

/-- A run's first point leaves `min ⊤ (R n)`: it resets the block to +∞ before folding its contribution in. -/
theorem reset_eq (c : Dev nD) (n : ℕ) (h : n < cfg0.N) (y : S32x128.Idx) :
    Value.reset2 m c n h y = min ⊤ (R m c n h y) := by
  obtain ⟨p, q, rfl⟩ : ∃ (p : Fin 32) (q : Fin 128), y = ix2 p q := ⟨y 0, y 1, eq_ix2 y⟩
  refine (pay2_apply (xblk m c n h) (wblk m c n h) (k0_pay1 (F := Ideal)) p q).trans ?_
  rw [pay1_apply]
  rfl

/-- A later point leaves the minimum of what it found and its contribution. -/
theorem step_eq (c : Dev nD) (n : ℕ) (h : n < cfg0.N) (acc : S32x128.Idx → EReal) (y : S32x128.Idx) :
    Value.step2 m c n h acc y = min (acc y) (R m c n h y) := by
  obtain ⟨p, q, rfl⟩ : ∃ (p : Fin 32) (q : Fin 128), y = ix2 p q := ⟨y 0, y 1, eq_ix2 y⟩
  exact pay2_apply (xblk m c n h) (wblk m c n h) acc p q

/-! ## The array -/

/-- THE OUTPUT ARRAY after the kernel's run is the layer's value of the two argument arrays. -/
theorem G2_apply (c : Dev nD) (i : S128x1024.Idx) :
    Value.G2 m c i = spec (m ((c : Thread nD τ).loc main_arg0)) (m ((c : Thread nD τ).loc main_arg1)) i := by
  have hi0 : (i 0).val < 128 := (i 0).isLt
  have hi1 : (i 1).val < 1024 := (i 1).isLt
  have hN : cfg0.N = 256 := N_0
  have hrun : Value.run2Of i = 8 * ((i 0).val / 32) + (i 1).val / 128 := by
    show 8 * ((i 0).val / 32 - 0) + 1 * ((i 1).val / 128 - 0) = _
    omega
  have hlt : 8 * Value.run2Of i + 7 < cfg0.N := by omega
  have hp : (Value.loc2Of i 0).val = (i 0).val % 32 := rfl
  have hq : (Value.loc2Of i 1).val = (i 1).val % 128 := rfl
  unfold Value.G2
  rw [dif_pos hlt]
  refine eq_of_forall_le_iff (α := EReal) fun z => ?_
  rw [Pipeline.le_accAt_min_iff (Value.reset2 m c) (Value.step2 m c) (R m c) (8 * Value.run2Of i) (reset_eq m c)
    (step_eq m c) 7 hlt (Value.loc2Of i) z, le_spec_iff]
  constructor
  · intro hz k
    have hk : k.val < 1024 := k.isLt
    have h1 := hz (k.val / 128) (by omega)
    unfold R at h1
    rw [Finset.le_fold_min] at h1
    have h2 := h1.2 ⟨k.val % 128, Nat.mod_lt _ (by decide)⟩ (Finset.mem_univ _)
    rw [xblk_apply m c _ _ (Value.loc2Of i 0) ⟨k.val % 128, Nat.mod_lt _ (by decide)⟩ (i 0) k
        (by rw [hp]; omega) (by show k.val = 128 * ((8 * Value.run2Of i + k.val / 128) % 8) + k.val % 128; omega),
      wblk_apply m c _ _ (Value.loc2Of i 1) ⟨k.val % 128, Nat.mod_lt _ (by decide)⟩ (i 1) k
        (by rw [hq]; omega) (by show k.val = 128 * ((8 * Value.run2Of i + k.val / 128) % 8) + k.val % 128; omega)] at h2
    exact h2
  · intro hz s hs
    unfold R
    rw [Finset.le_fold_min]
    refine ⟨le_top, fun l _ => ?_⟩
    have hl : l.val < 128 := l.isLt
    rw [xblk_apply m c _ _ (Value.loc2Of i 0) l (i 0) ⟨128 * s + l.val, by omega⟩
        (by rw [hp]; omega) (by show 128 * s + l.val = _; omega),
      wblk_apply m c _ _ (Value.loc2Of i 1) l (i 1) ⟨128 * s + l.val, by omega⟩
        (by rw [hq]; omega) (by show 128 * s + l.val = _; omega)]
    exact hz _

/-- THE KERNEL'S RUN: every weakly fair execution terminates with the output array at the layer's value of the two
    argument arrays, and the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0)
          = spec (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (funext (G2_apply m c)), (h c).2⟩) (Value.run m ρ)

end Cert.KernelIdeal.Layer

end
-- ==== Proof.RefValue.lean ====
/-
  What the reference computes, as the layer's value `Cert.Heyting.spec` of the two argument arrays.

  The reference broadcasts the two [rows, 1024] arrays of logistic values to [128, 1024, 1024], so that entry
  `(b, o, k)` sees `u = σ(x[b, k])` and `v = σ(w[o, k])` (`sx_apply`, `sw_apply`: each broadcast reads its operand at
  the coordinates it keeps). Entry by entry it then forms the indicator of `u ≤ v`, the surrogate `σ(50·(v − u))`, the
  straight-through value and `c + (1 − c)·v` — `Cert.Heyting.refPair u v` (`pair_apply`), which is the implication
  `u ⇒ v` because `u` and `v` are real. Last it reduces axis 2 by `minimum` from +∞: at `(b, o)` the fold of `min`
  over the 1024 features `k`, which is `spec` by definition.
-/
import proofs.«145883_j77945066488172_1_alg».proof.Proof.Gen.ReferenceIdeal.Read
import proofs.«145883_j77945066488172_1_alg».proof.Proof.HeytingAlgebra

noncomputable section

namespace Cert.ReferenceIdeal.Layer

open Cert.ReferenceIdeal Cert.ReferenceIdeal.Gen Cert.ReferenceIdeal.Read Idealize.ShloMosaic Idealize.ShloMosaic.TcCoe
open Idealize.SL.Sem Idealize.ShloMosaic.StableHlo Idealize.ShloMosaic.ValueIdx Cert.Heyting

variable (x0 : (⟨S128x1024, .f32⟩ : BufTy).Contents (Elt Ideal)) (x1 : (⟨S1024x1024, .f32⟩ : BufTy).Contents (Elt Ideal))

/-! ## The two logistic arrays, and their broadcasts -/

/-- The logistic of `x`, entry by entry. -/
theorem v5_apply (i : S128x1024.Idx) : val_main_v5 (F := Ideal) x0 i = Ideal.logistic (x0 i) := by
  rw [val_main_v5_apply, val_main_v4_apply, val_main_cst_0_apply, val_main_v3_apply, val_main_v2_apply,
    val_main_cst_apply, val_main_v1_apply, val_main_v0_apply]
  exact refSig_eq _

/-- The logistic of `w`, entry by entry. -/
theorem v11_apply (i : S1024x1024.Idx) : val_main_v11 (F := Ideal) x1 i = Ideal.logistic (x1 i) := by
  rw [val_main_v11_apply, val_main_v10_apply, val_main_cst_2_apply, val_main_v9_apply, val_main_v8_apply,
    val_main_cst_1_apply, val_main_v7_apply, val_main_v6_apply]
  exact refSig_eq _

/-- `σ(x)` viewed [128, 1, 1024]: entry `(b, 0, k)` is `σ(x[b, k])`. -/
theorem v12_apply (b : Fin 128) (u : Fin 1) (k : Fin 1024) :
    val_main_v12 (F := Ideal) x0 (ix3 b u k) = Ideal.logistic (x0 (ix2 b k)) := by
  rw [val_main_v12_apply, v5_apply]
  exact congrArg (fun j => Ideal.logistic (x0 j)) (funext fun a => Fin.ext (by match a with | ⟨0, _⟩ => rfl | ⟨1, _⟩ => rfl))

/-- `σ(w)` viewed [1, 1024, 1024]: entry `(0, o, k)` is `σ(w[o, k])`. -/
theorem v13_apply (u : Fin 1) (o : Fin 1024) (k : Fin 1024) :
    val_main_v13 (F := Ideal) x1 (ix3 u o k) = Ideal.logistic (x1 (ix2 o k)) := by
  rw [val_main_v13_apply, v11_apply]
  exact congrArg (fun j => Ideal.logistic (x1 j)) (funext fun a => Fin.ext (by match a with | ⟨0, _⟩ => rfl | ⟨1, _⟩ => rfl))

/-- The index a broadcast along axis 1 reads: `(b, o, k) ↦ (b, 0, k)`. -/
theorem idx_keep02 (b : Fin 128) (o : Fin 1024) (k : Fin 1024) :
    (idx_main_v14 (ix3 b o k) : S128x1x1024.Idx) = ix3 b (0 : Fin 1) k :=
  funext fun a => Fin.ext (by match a with | ⟨0, _⟩ => rfl | ⟨1, _⟩ => rfl | ⟨2, _⟩ => rfl)

/-- The index a broadcast along axis 0 reads: `(b, o, k) ↦ (0, o, k)`. -/
theorem idx_keep12 (b : Fin 128) (o : Fin 1024) (k : Fin 1024) :
    (idx_main_v15 (ix3 b o k) : S1x1024x1024.Idx) = ix3 (0 : Fin 1) o k :=
  funext fun a => Fin.ext (by match a with | ⟨0, _⟩ => rfl | ⟨1, _⟩ => rfl | ⟨2, _⟩ => rfl)

/-- Every broadcast of `σ(x)` to [128, 1024, 1024] holds `σ(x[b, k])` at `(b, o, k)`. -/
theorem sx_apply (b : Fin 128) (o : Fin 1024) (k : Fin 1024) :
    val_main_v14 (F := Ideal) x0 (ix3 b o k) = Ideal.logistic (x0 (ix2 b k))
    ∧ val_main_v19 (F := Ideal) x0 (ix3 b o k) = Ideal.logistic (x0 (ix2 b k)) := by
  refine ⟨?_, ?_⟩
  · rw [val_main_v14_apply, idx_keep02, v12_apply]
  · rw [val_main_v19_apply]
    exact (congrArg (val_main_v12 (F := Ideal) x0) (idx_keep02 b o k)).trans (v12_apply x0 b 0 k)

/-- Every broadcast of `σ(w)` to [128, 1024, 1024] holds `σ(w[o, k])` at `(b, o, k)`. -/
theorem sw_apply (b : Fin 128) (o : Fin 1024) (k : Fin 1024) :
    val_main_v15 (F := Ideal) x1 (ix3 b o k) = Ideal.logistic (x1 (ix2 o k))
    ∧ val_main_v18 (F := Ideal) x1 (ix3 b o k) = Ideal.logistic (x1 (ix2 o k))
    ∧ val_main_v33 (F := Ideal) x1 (ix3 b o k) = Ideal.logistic (x1 (ix2 o k)) := by
  refine ⟨?_, ?_, ?_⟩
  · rw [val_main_v15_apply, idx_keep12, v13_apply]
  · rw [val_main_v18_apply]
    exact (congrArg (val_main_v13 (F := Ideal) x1) (idx_keep12 b o k)).trans (v13_apply x1 0 o k)
  · rw [val_main_v33_apply]
    exact (congrArg (val_main_v13 (F := Ideal) x1) (idx_keep12 b o k)).trans (v13_apply x1 0 o k)

/-! ## One entry of the [128, 1024, 1024] array the reduction reads -/

/-- Entry `(b, o, k)` is the reference's spelling of the implication between `σ(x[b, k])` and `σ(w[o, k])`. -/
theorem pair_apply (b : Fin 128) (o : Fin 1024) (k : Fin 1024) :
    val_main_v35 (F := Ideal) x0 x1 (ix3 b o k)
      = refPair (Ideal.logistic (x0 (ix2 b k))) (Ideal.logistic (x1 (ix2 o k))) := by
  obtain ⟨h14, h19⟩ := sx_apply x0 b o k
  obtain ⟨h15, h18, h33⟩ := sw_apply x1 b o k
  rw [val_main_v35_apply, val_main_v34_apply, val_main_v32_apply, val_main_v31_apply, val_main_cst_6_apply,
    val_main_v30_apply, val_main_v29_apply, val_main_v28_apply, val_main_v27_apply, val_main_cst_5_apply,
    val_main_v26_apply, val_main_v25_apply, val_main_cst_4_apply, val_main_v24_apply, val_main_v23_apply,
    val_main_v22_apply, val_main_v21_apply, val_main_cst_3_apply, val_main_v20_apply, val_main_v17_apply,
    val_main_v16_apply, h14, h15, h18, h19, h33]
  rfl

/-- … which is the implication itself, the two logistic values being real. -/
theorem pair_eq_imp (b : Fin 128) (o : Fin 1024) (k : Fin 1024) :
    val_main_v35 (F := Ideal) x0 x1 (ix3 b o k)
      = imp (Ideal.logistic (x0 (ix2 b k))) (Ideal.logistic (x1 (ix2 o k))) := by
  rw [pair_apply]
  obtain ⟨u, hu⟩ := logistic_real (x0 (ix2 b k))
  obtain ⟨v, hv⟩ := logistic_real (x1 (ix2 o k))
  rw [hu, hv]
  exact refPair_eq u v

/-! ## The reduction over the features -/

/-- The reduction's shape fact in the form that names the inserted coordinate. -/
theorem reduces_d2 : S128x1024x1024.Reduces [2] S128x1024 := by decide

/-- The feature coordinate `k` inserted into a result index `(b, o)`. -/
theorem lift_eq (b : Fin 128) (o : Fin 1024) (k : Fin 1024) : reduces_d2.lift (ix2 b o) k = ix3 b o k := by
  funext a; apply Fin.ext
  match a with
  | ⟨0, _⟩ => rfl
  | ⟨1, _⟩ => rfl
  | ⟨2, _⟩ => rfl

/-- THE REFERENCE'S RESULT is the layer's value of the two argument arrays. -/
theorem result_eq : val_main_v36 (F := Ideal) x0 x1 = spec x0 x1 := by
  funext i
  obtain ⟨b, o, rfl⟩ : ∃ (b : Fin 128) (o : Fin 1024), i = ix2 b o := ⟨i 0, i 1, eq_ix2 i⟩
  unfold val_main_v36
  refine (Host.reduce_eq_fold_single (α := EReal) (FloatOps.minimumf (F := Ideal) (φ := .f32))
    (val_main_v35 (F := Ideal) x0 x1) (val_main_cst_7 (F := Ideal))
    reducesTo_S128x1024x1024_S128x1024_d2 reduces_d2 h_S_ (ix2 b o)).trans ?_
  show (Finset.univ : Finset (Fin 1024)).fold min (Ideal.ofBits .f32 0x7F800000#32) _ = _
  rw [ofBits_inf]
  unfold spec
  refine congrArg (fun f => (Finset.univ : Finset (Fin 1024)).fold min ⊤ f) (funext fun (k : Fin 1024) => ?_)
  exact (congrArg (val_main_v35 (F := Ideal) x0 x1) (lift_eq b o k)).trans (pair_eq_imp x0 x1 b o k)

/-- THE REFERENCE'S RUN: every weakly fair execution terminates with the result at the layer's value of the two
    argument arrays, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36)
          = spec (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans ((val_main_v36_eq m c).trans (result_eq _ _)), (h c).2⟩)
    (Cert.ReferenceIdeal.Value.run (F := Ideal) m ρ)

end Cert.ReferenceIdeal.Layer

end
-- ==== Proof.lean ====
/-
  The certificate of `Cert.Claim`: a Heyting (Gödel) implication layer.

  With σ the logistic function, both programs compute, for a batch row b and an output row o,

      out[b, o] = min over the 1024 features k of (σ(x[b, k]) ⇒ σ(w[o, k])),     (u ⇒ v) = 1 if u ≤ v, else v

  (`Cert.Heyting.spec`, Proof/HeytingAlgebra.lean). The kernel selects between 1 and v on the comparison and keeps a
  running minimum over eight feature tiles in the output block (Proof/KernelValue.lean: one grid point;
  Proof/KernelArray.lean: the run of eight points and the whole array). The reference writes the implication with a
  straight-through estimator, `c + (1 − c)·v` with `c = (e − s) + s`, `e` the indicator of `u ≤ v` and `s` a logistic
  surrogate: since `s` is a real number `c = e` exactly over the extended reals, and `e + (1 − e)·v` is the same
  implication; it then takes one minimum over all features (Proof/RefValue.lean). The two minima are compared through
  their universal property, so no order of evaluation enters. Nothing here needs the inputs to be finite: σ maps every
  extended real to a real.

  The three frames are the runs with their value dropped (the word-level kernel's is its own frame run), and the
  idealization rewrote no operation, so `preserves` is trivial.
-/
import proofs.«145883_j77945066488172_1_alg».proof.Defs
import proofs.«145883_j77945066488172_1_alg».proof.Proof.Gen.Kernel.Frame
import proofs.«145883_j77945066488172_1_alg».proof.Proof.Gen.KernelIdeal.Value
import proofs.«145883_j77945066488172_1_alg».proof.Proof.Gen.Pre_finite_inputs
import proofs.«145883_j77945066488172_1_alg».proof.Proof.Gen.ReferenceIdeal.Run
import proofs.«145883_j77945066488172_1_alg».proof.Proof.KernelArray
import proofs.«145883_j77945066488172_1_alg».proof.Proof.RefValue
import Idealize.ShloMosaic.Adequacy
import Idealize.ShloMosaic.Init

noncomputable section

namespace Cert.Proof

open Idealize.ShloMosaic Idealize.SL.Sem

/-- The idealized kernel terminates without fault and leaves its arguments as they were: its value run, the value dropped. -/
theorem frame_KernelIdeal : frame_KernelIdeal := fun m ρ _ =>
  (θ_run Cert.KernelIdeal.defs _ _).mono (fun _ h c => (h c).2) (Cert.KernelIdeal.Layer.run m ρ)

/-- The idealized reference terminates without fault and leaves its arguments as they were: its value run, the value dropped. -/
theorem frame_ReferenceIdeal : frame_ReferenceIdeal := fun m ρ _ =>
  (θ_run Cert.ReferenceIdeal.defs _ _).mono (fun _ h c => (h c).2) (Cert.ReferenceIdeal.Layer.run m ρ)

/-- From memories that agree on `x` and `w`, both programs end with the layer's value of `x` and `w` in their result. -/
theorem algebraic_KernelIdeal_ReferenceIdeal : algebraic_KernelIdeal_ReferenceIdeal := by
  intro m ρ m' ρ' _ hagree
  refine ⟨_, Cert.KernelIdeal.Layer.run m ρ, ?_⟩
  refine (θ_run Cert.ReferenceIdeal.defs _ _).mono (fun _ h c => ⟨(h c).1.trans ?_, (h c).2⟩)
    (Cert.ReferenceIdeal.Layer.run m' ρ')
  rw [(hagree c).1, (hagree c).2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
